-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S100000x64 .f32) (main_arg1 : FVec F S50000x64 .f32) (main_arg2 : IVec S2000000 32) (main_arg3 : IVec S2000000 32) (main_arg4 : FVec F S2000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S2000000 : Shape := ⟨1, ![2000000]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 57
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S150000x64, .f32⟩
  | .hbm, ⟨6, _⟩ => ⟨S2000000x1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S2000000x64, .f32⟩
  | .hbm, ⟨17, _⟩ => ⟨S2000000x64, .f32⟩
  | .hbm, ⟨18, _⟩ => ⟨S_, .f32⟩
  | .hbm, ⟨19, _⟩ => ⟨S150000x64, .f32⟩
  | .hbm, ⟨20, _⟩ => ⟨S2000000x1, .i32⟩
  | .hbm, ⟨21, _⟩ => ⟨S150000x64, .f32⟩
  | .hbm, ⟨22, _⟩ => ⟨S2000000x1, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x64, .f32⟩
  | .hbm, ⟨32, _⟩ => ⟨S2000000x64, .f32⟩
  | .hbm, ⟨33, _⟩ => ⟨S2000000x64, .f32⟩
  | .hbm, ⟨34, _⟩ => ⟨S_, .f32⟩
  | .hbm, ⟨35, _⟩ => ⟨S150000x64, .f32⟩
  | .hbm, ⟨36, _⟩ => ⟨S2000000x1, .i32⟩
  | .hbm, ⟨37, _⟩ => ⟨S150000x64, .f32⟩
  | .hbm, ⟨38, _⟩ => ⟨S2000000x1, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x64, .f32⟩
  | .hbm, ⟨48, _⟩ => ⟨S2000000x64, .f32⟩
  | .hbm, ⟨49, _⟩ => ⟨S2000000x64, .f32⟩
  | .hbm, ⟨50, _⟩ => ⟨S_, .f32⟩
  | .hbm, ⟨51, _⟩ => ⟨S150000x64, .f32⟩
  | .hbm, ⟨52, _⟩ => ⟨S2000000x1, .i32⟩
  | .hbm, ⟨53, _⟩ => ⟨S150000x64, .f32⟩
  | .hbm, ⟨54, _⟩ => ⟨S150000x64, .f32⟩
  | .hbm, ⟨55, _⟩ => ⟨S100000x64, .f32⟩
  | .hbm, ⟨56, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S150000 : Shape := ⟨1, ![150000]⟩
abbrev S150000x1 : Shape := ⟨2, ![150000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S150000x64, .f32⟩
  | .hbm, ⟨6, _⟩ => ⟨S2000000x1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S2000000x64, .f32⟩
  | .hbm, ⟨17, _⟩ => ⟨S2000000x64, .f32⟩
  | .hbm, ⟨18, _⟩ => ⟨S_, .f32⟩
  | .hbm, ⟨19, _⟩ => ⟨S150000x64, .f32⟩
  | .hbm, ⟨20, _⟩ => ⟨S2000000x1, .i32⟩
  | .hbm, ⟨21, _⟩ => ⟨S150000x64, .f32⟩
  | .hbm, ⟨22, _⟩ => ⟨S150000x64, .f32⟩
  | .hbm, ⟨23, _⟩ => ⟨S_, .f32⟩
  | .hbm, ⟨24, _⟩ => ⟨S150000, .f32⟩
  | .hbm, ⟨25, _⟩ => ⟨S150000x1, .f32⟩
  | .hbm, ⟨26, _⟩ => ⟨S150000x1, .f32⟩
  | .hbm, ⟨27, _⟩ => ⟨S_, .f32⟩
  | .hbm, ⟨28, _⟩ => ⟨S150000x1, .f32⟩
  | .hbm, ⟨29, _⟩ => ⟨S150000x1, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S2000000x1, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000x64, .f32⟩
  | .hbm, ⟨43, _⟩ => ⟨S2000000x64, .f32⟩
  | .hbm, ⟨44, _⟩ => ⟨S2000000x64, .f32⟩
  | .hbm, ⟨45, _⟩ => ⟨S_, .f32⟩
  | .hbm, ⟨46, _⟩ => ⟨S150000x64, .f32⟩
  | .hbm, ⟨47, _⟩ => ⟨S2000000x1, .i32⟩
  | .hbm, ⟨48, _⟩ => ⟨S150000x64, .f32⟩
  | .hbm, ⟨49, _⟩ => ⟨S150000x64, .f32⟩
  | .hbm, ⟨50, _⟩ => ⟨S_, .f32⟩
  | .hbm, ⟨51, _⟩ => ⟨S150000, .f32⟩
  | .hbm, ⟨52, _⟩ => ⟨S150000x1, .f32⟩
  | .hbm, ⟨53, _⟩ => ⟨S150000x1, .f32⟩
  | .hbm, ⟨54, _⟩ => ⟨S_, .f32⟩
  | .hbm, ⟨55, _⟩ => ⟨S150000x1, .f32⟩
  | .hbm, ⟨56, _⟩ => ⟨S150000x1, .f32⟩
  | .hbm, ⟨57, _⟩ => ⟨S150000x64, .f32⟩
  | .hbm, ⟨58, _⟩ => ⟨S150000x64, .f32⟩
  | .hbm, ⟨59, _⟩ => ⟨S150000x64, .f32⟩
  | .hbm, ⟨60, _⟩ => ⟨S2000000x1, .f32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S2000000x64, .f32⟩
  | .hbm, ⟨70, _⟩ => ⟨S2000000x64, .f32⟩
  | .hbm, ⟨71, _⟩ => ⟨S2000000x64, .f32⟩
  | .hbm, ⟨72, _⟩ => ⟨S_, .f32⟩
  | .hbm, ⟨73, _⟩ => ⟨S150000x64, .f32⟩
  | .hbm, ⟨74, _⟩ => ⟨S2000000x1, .i32⟩
  | .hbm, ⟨75, _⟩ => ⟨S150000x64, .f32⟩
  | .hbm, ⟨76, _⟩ => ⟨S150000x64, .f32⟩
  | .hbm, ⟨77, _⟩ => ⟨S_, .f32⟩
  | .hbm, ⟨78, _⟩ => ⟨S150000, .f32⟩
  | .hbm, ⟨79, _⟩ => ⟨S150000x1, .f32⟩
  | .hbm, ⟨80, _⟩ => ⟨S150000x1, .f32⟩
  | .hbm, ⟨81, _⟩ => ⟨S_, .f32⟩
  | .hbm, ⟨82, _⟩ => ⟨S150000x1, .f32⟩
  | .hbm, ⟨83, _⟩ => ⟨S150000x1, .f32⟩
  | .hbm, ⟨84, _⟩ => ⟨S150000x64, .f32⟩
  | .hbm, ⟨85, _⟩ => ⟨S150000x64, .f32⟩
  | .hbm, ⟨86, _⟩ => ⟨S150000x64, .f32⟩
  | .hbm, ⟨87, _⟩ => ⟨S_, .f32⟩
  | .hbm, ⟨88, _⟩ => ⟨S150000x64, .f32⟩
  | .hbm, ⟨89, _⟩ => ⟨S150000x64, .f32⟩
  | .hbm, ⟨90, _⟩ => ⟨S100000x64, .f32⟩
  | .hbm, ⟨91, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.Spec.lean ====
/-
  The pooled embedding as one function of four node-by-feature arrays, over the extended reals.

  A propagation layer's output `h` enters the pool normalised by its row's Euclidean length, the length clamped
  below by a small positive constant: at row `r` and feature `q` the term is `h(r,q) / max (sqrt (∑ₖ h(r,k)²)) ε`.
  The pool adds the un-normalised base embedding and the three layers' terms, in that order, and takes a quarter.
  One program multiplies by the float `0.25`, the other divides by the float `4`: `0.25` is the exact dyadic 1/4,
  and a quotient by a nonzero real is the product with its reciprocal on EVERY extended real, infinite ones included,
  so the two agree without any finiteness assumption.
-/
import Idealize.ShloMosaic.PureOps.Ideal
import Idealize.ShloMosaic.Lib.ValueIdx

noncomputable section

namespace Cert.Pool

open Idealize.ShloMosaic Idealize.ShloMosaic.ValueIdx

/-- The node-by-feature array shape: 150000 graph nodes, 64 features. -/
abbrev Nodes : Shape := ⟨2, ![150000, 64]⟩

/-- The clamp of the row length: the float nearest `1e-12`, the same word in both programs. -/
abbrev clampEps : EReal := Ideal.ofBits .f32 0x2B8CBCCC#32

/-- The float `0.25`. -/
abbrev quarter : EReal := Ideal.ofBits .f32 0x3E800000#32

/-- The float `4`. -/
abbrev four : EReal := Ideal.ofBits .f32 0x40800000#32

/-- One layer's entry `h` over its row's clamped length, the row's sum of squares being `s`. -/
def normed (h s : EReal) : EReal := Ideal.div h (max (Ideal.sqrt s) clampEps)

/-- The base entry and the three layers' normalised entries added in order, then a quarter of it. -/
def cell (x h1 s1 h2 s2 h3 s3 : EReal) : EReal :=
  (((x + normed h1 s1) + normed h2 s2) + normed h3 s3) * quarter

/-- The sum of the squares of row `r` of an array with 64 features. -/
def rowSq {n : Nat} (A : (⟨2, ![n, 64]⟩ : Shape).Idx → EReal) (r : Fin n) : EReal :=
  ∑ k : Fin 64, A (ix2 r k) * A (ix2 r k)

/-- The pooled array: at node `i 0` and feature `i 1`, the cell of the four arrays' entries there and of the three
    layers' row sums at that node. -/
def pooled (A0 A1 A2 A3 : Nodes.Idx → EReal) : Nodes.Idx → EReal := fun i =>
  cell (A0 i) (A1 i) (rowSq A1 (i 0)) (A2 i) (rowSq A2 (i 0)) (A3 i) (rowSq A3 (i 0))

/-- The float `4` denotes the real 4. -/
theorem four_eq : four = ((4 : ℝ) : EReal) := by
  simp [Ideal.ofBits, Ideal.ieee, -EReal.coe_mul]; norm_num

/-- The float `0.25` denotes the real 1/4. -/
theorem quarter_eq : quarter = ((1 / 4 : ℝ) : EReal) := by
  simp [Ideal.ofBits, Ideal.ieee, -EReal.coe_mul]; norm_num

/-- Dividing by the float `4` is multiplying by the float `0.25`, on every extended real. -/
theorem div_four (x : EReal) : Ideal.div x four = x * quarter := by
  rw [four_eq, quarter_eq]
  exact Ideal.div_coe (by norm_num) x

/-- The float `+0.0` denotes zero. -/
theorem zero_eq : Ideal.ofBits .f32 0x00000000#32 = 0 := by
  simp [Ideal.ofBits, Ideal.ieee]

end Cert.Pool

end
-- ==== Proof.Body.lean ====
/-
  What the pooling body stores, read at row `p` and feature `q` of its 5000-by-64 block.

  For each layer block `h` the body squares it, sums each row over the 64 lanes, reshapes the 5000 sums to a column,
  takes the square root, clamps from below, spreads the column back over the lanes and divides `h` by it: at `(p, q)`
  this is `h(p,q)` over the clamped length of row `p`. The three layers' terms are added onto the base block in order
  and the sum is multiplied by the float 0.25: the pool's cell.
-/
import proofs.«135873_j60035052863927_1_alg».proof.Proof.Gen.KernelIdeal.Skeleton
import proofs.«135873_j60035052863927_1_alg».proof.Proof.Spec
import Idealize.ShloMosaic.Lib.Pipeline.Value
import Idealize.ShloMosaic.PureOps.Ideal.Laws

noncomputable section

namespace Cert.Pool.Body

open Idealize.ShloMosaic Idealize.ShloMosaic.ValueIdx Cert.KernelIdeal Cert.KernelIdeal.Gen

/-- A lane reduction of a 5000-by-64 block at row `p` is the sum over that row's 64 entries. -/
theorem laneSum (v : FVec Ideal S5000x64 .f32) (hφ : FKind.Formats .f32)
    (hacc : (0x00000000#32 : BitVec FTy.f32.bits) = 0x00000000#32) (p : Fin 5000) :
    multiReduction .add [1] S5000 v 0x00000000#32 reduces_S5000x64_S5000 hφ hacc (ix1 p) = ∑ k : Fin 64, v (ix2 p k) := by
  refine (Ideal.multiReduction_add_single v 0x00000000#32 reduces_S5000x64_S5000 hφ hacc (ix1 p)).trans ?_
  refine Finset.sum_congr rfl fun k _ => congrArg v ?_
  funext a
  match a with
  | ⟨0, _⟩ => rfl
  | ⟨1, _⟩ => rfl

/-- The clamped row length spread over the lanes, read at `(p, q)`: it depends on row `p` only. -/
theorem length_apply (h : FVec Ideal S5000x64 .f32) (p : Fin 5000) (q : Fin 64) :
    broadcastTo S5000x64
        (maximumf (sqrt (shapeCast S5000x1
            (multiReduction .add [1] S5000 (mulf h h) 0x00000000#32 reduces_S5000x64_S5000 (.inl rfl) rfl) shapeCasts_S5000_S5000x1))
          (broadcast S5000x1 (Scalar.ofBits (F := Ideal) .f32 0x2B8CBCCC#32)))
        broadcasts_S5000x1_S5000x64 (ix2 p q)
      = max (Ideal.sqrt (Cert.Pool.rowSq h p)) Cert.Pool.clampEps := by
  rw [broadcastTo_apply _ broadcasts_S5000x1_S5000x64 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else q.val; rw [if_pos rfl])]
  rw [maximumf_apply]
  show max (Ideal.sqrt (shapeCast S5000x1 _ shapeCasts_S5000_S5000x1 (ix2 p (0 : Fin 1)))) _ = _
  rw [shapeCast_apply _ shapeCasts_S5000_S5000x1 (ix2 p (0 : Fin 1)) (ix1 p) (by
    rw [Shape.rowMajor_val_two, Shape.rowMajor_val_one]
    show p.val = p.val * 1 + 0
    omega)]
  exact congrArg (fun s => max (Ideal.sqrt s) Cert.Pool.clampEps) (laneSum (mulf h h) _ _ p)

/-- The body's stored value at `(p, q)` is the pool's cell of the four blocks' entries there and of the three layer
    blocks' sums of squares over row `p`. -/
theorem pay_apply (x0 x1 x2 x3 : Vec Ideal S5000x64 .f32) (p : Fin 5000) (q : Fin 64) :
    k0_pay1 (F := Ideal) x0 x1 x2 x3 (ix2 p q)
      = Cert.Pool.cell (x0 (ix2 p q)) (x1 (ix2 p q)) (Cert.Pool.rowSq x1 p) (x2 (ix2 p q)) (Cert.Pool.rowSq x2 p)
          (x3 (ix2 p q)) (Cert.Pool.rowSq x3 p) := by
  unfold k0_pay1
  simp only [shapeCast_self]
  rw [mulf_apply, addf_apply, addf_apply, addf_apply, divf_apply, divf_apply, divf_apply,
    length_apply, length_apply, length_apply]
  rfl

end Cert.Pool.Body

end
-- ==== Proof.Blocks.lean ====
/-
  From the blocks the pooling region writes back to the whole pooled array.

  The grid has 30 points; at point `t` every window's block is rows `5000·t … 5000·t + 4999` of its array, all 64
  features. So entry `(p, q)` of an input block is entry `(5000·t + p, q)` of the array, a block row's sum of squares is
  the array row's, and what point `t` writes back is block `t` of the pool of the four arrays the region reads.
  Every row `r` lies in the block of point `r / 5000`, so the blocks cover the output array and it ends holding the pool.
-/
import proofs.«135873_j60035052863927_1_alg».proof.Proof.Gen.KernelIdeal.Frame
import proofs.«135873_j60035052863927_1_alg».proof.Proof.Body
import Idealize.ShloMosaic.Lib.Pipeline.Value

noncomputable section

namespace Cert.Pool.Blocks

open Idealize.ShloMosaic Idealize.ShloMosaic.TcCoe Idealize.ShloMosaic.ValueIdx Idealize.SL.Sem
open Idealize.ShloMosaic.Pipeline (Dat)
open Cert.KernelIdeal Cert.KernelIdeal.Gen

theorem zeroOff : (![0, 0] : Fin 2 → Nat) = fun _ => 0 := funext fun a => by fin_cases a <;> rfl

/-- Every window's block index at point `t` is `(t, 0)`: decided over the 30 points. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `5000·t + p` of the array. -/
def rowOf (t : Fin cfg0.N) (p : Fin 5000) : Fin 150000 :=
  ⟨t.val * 5000 + p.val, by have := t.isLt; have hN : cfg0.N = 30 := N_0; have := p.isLt; omega⟩

/-- Window 0's block at point `t`, read off an array `A`, at `(p, q)`: the array's entry `(5000·t + p, q)`. -/
theorem read0 (A : S150000x64.Idx → Elt Ideal .f32) (t : Fin cfg0.N) (p : Fin 5000) (q : Fin 64) :
    (((cfg0.win 0).blk t).view.read (Elt Ideal) A : Vec Ideal S5000x64 .f32) (ix2 p q) = A (ix2 (rowOf t p) q) := by
  obtain ⟨e0, e1, -⟩ := blockIdx t
  show A (((cfg0.win 0).blk t).view.emb (ix2 p q)) = A (ix2 (rowOf t p) q)
  exact congrArg A (funext fun a => Fin.ext (by
    match a with
    | ⟨0, _⟩ => show win0_0.index t (0 : Fin 2) * 5000 + 1 * p.val = t.val * 5000 + p.val; rw [e0]; omega
    | ⟨1, _⟩ => show win0_0.index t (1 : Fin 2) * 64 + 1 * q.val = q.val; rw [e1]; omega))

/-- Window 1's likewise. -/
theorem read1 (A : S150000x64.Idx → Elt Ideal .f32) (t : Fin cfg0.N) (p : Fin 5000) (q : Fin 64) :
    (((cfg0.win 1).blk t).view.read (Elt Ideal) A : Vec Ideal S5000x64 .f32) (ix2 p q) = A (ix2 (rowOf t p) q) := by
  obtain ⟨-, -, e0, e1, -⟩ := blockIdx t
  show A (((cfg0.win 1).blk t).view.emb (ix2 p q)) = A (ix2 (rowOf t p) q)
  exact congrArg A (funext fun a => Fin.ext (by
    match a with
    | ⟨0, _⟩ => show win0_1.index t (0 : Fin 2) * 5000 + 1 * p.val = t.val * 5000 + p.val; rw [e0]; omega
    | ⟨1, _⟩ => show win0_1.index t (1 : Fin 2) * 64 + 1 * q.val = q.val; rw [e1]; omega))

/-- Window 2's likewise. -/
theorem read2 (A : S150000x64.Idx → Elt Ideal .f32) (t : Fin cfg0.N) (p : Fin 5000) (q : Fin 64) :
    (((cfg0.win 2).blk t).view.read (Elt Ideal) A : Vec Ideal S5000x64 .f32) (ix2 p q) = A (ix2 (rowOf t p) q) := by
  obtain ⟨-, -, -, -, e0, e1, -⟩ := blockIdx t
  show A (((cfg0.win 2).blk t).view.emb (ix2 p q)) = A (ix2 (rowOf t p) q)
  exact congrArg A (funext fun a => Fin.ext (by
    match a with
    | ⟨0, _⟩ => show win0_2.index t (0 : Fin 2) * 5000 + 1 * p.val = t.val * 5000 + p.val; rw [e0]; omega
    | ⟨1, _⟩ => show win0_2.index t (1 : Fin 2) * 64 + 1 * q.val = q.val; rw [e1]; omega))

/-- Window 3's likewise. -/
theorem read3 (A : S150000x64.Idx → Elt Ideal .f32) (t : Fin cfg0.N) (p : Fin 5000) (q : Fin 64) :
    (((cfg0.win 3).blk t).view.read (Elt Ideal) A : Vec Ideal S5000x64 .f32) (ix2 p q) = A (ix2 (rowOf t p) q) := by
  obtain ⟨-, -, -, -, -, -, e0, e1, -⟩ := blockIdx t
  show A (((cfg0.win 3).blk t).view.emb (ix2 p q)) = A (ix2 (rowOf t p) q)
  exact congrArg A (funext fun a => Fin.ext (by
    match a with
    | ⟨0, _⟩ => show win0_3.index t (0 : Fin 2) * 5000 + 1 * p.val = t.val * 5000 + p.val; rw [e0]; omega
    | ⟨1, _⟩ => show win0_3.index t (1 : Fin 2) * 64 + 1 * q.val = q.val; rw [e1]; omega))

/-- A block row's sum of squares is the array row's. -/
theorem rowSq1 (A : S150000x64.Idx → Elt Ideal .f32) (t : Fin cfg0.N) (p : Fin 5000) :
    Cert.Pool.rowSq (((cfg0.win 1).blk t).view.read (Elt Ideal) A : Vec Ideal S5000x64 .f32) p = Cert.Pool.rowSq A (rowOf t p) := by
  unfold Cert.Pool.rowSq
  exact Finset.sum_congr rfl fun k _ => by rw [read1 A t p k]
theorem rowSq2 (A : S150000x64.Idx → Elt Ideal .f32) (t : Fin cfg0.N) (p : Fin 5000) :
    Cert.Pool.rowSq (((cfg0.win 2).blk t).view.read (Elt Ideal) A : Vec Ideal S5000x64 .f32) p = Cert.Pool.rowSq A (rowOf t p) := by
  unfold Cert.Pool.rowSq
  exact Finset.sum_congr rfl fun k _ => by rw [read2 A t p k]
theorem rowSq3 (A : S150000x64.Idx → Elt Ideal .f32) (t : Fin cfg0.N) (p : Fin 5000) :
    Cert.Pool.rowSq (((cfg0.win 3).blk t).view.read (Elt Ideal) A : Vec Ideal S5000x64 .f32) p = Cert.Pool.rowSq A (rowOf t p) := by
  unfold Cert.Pool.rowSq
  exact Finset.sum_congr rfl fun k _ => by rw [read3 A t p k]

/-- Entry `(p, q)` of the output's block at point `t` is entry `(5000·t + p, q)` of the output array. -/
theorem embOut (t : Fin cfg0.N) (p : Fin 5000) (q : Fin 64) :
    ((cfg0.win 4).blk t).view.emb (ix2 p q) = ix2 (rowOf t p) q := by
  obtain ⟨-, -, -, -, -, -, -, -, e0, e1⟩ := blockIdx t
  funext a
  apply Fin.ext
  match a with
  | ⟨0, _⟩ => show win0_4.index t (0 : Fin 2) * 5000 + 1 * p.val = t.val * 5000 + p.val; rw [e0]; omega
  | ⟨1, _⟩ => show win0_4.index t (1 : Fin 2) * 64 + 1 * q.val = q.val; rw [e1]; omega

/-- What the body leaves in the output's staging buffer at point `t`, from the blocks of four arrays, is block `t`
    of those arrays' pool. -/
theorem body_blk (A0 A1 A2 A3 : S150000x64.Idx → Elt Ideal .f32) (t : Fin cfg0.N) :
    out0_4 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
      = ((cfg0.win 4).blk t).view.read (Elt Ideal) (Cert.Pool.pooled A0 A1 A2 A3) := by
  unfold out0_4
  rw [View.canon_unit_zero zeroOff]
  simp only [View.ld_unit_zero (S := S5000x64) zeroOff]
  funext j
  obtain ⟨p, q, rfl⟩ : ∃ (p : Fin 5000) (q : Fin 64), j = ix2 p q := ⟨j 0, j 1, eq_ix2 j⟩
  show _ = Cert.Pool.pooled A0 A1 A2 A3 (((cfg0.win 4).blk t).view.emb (ix2 p q))
  rw [embOut t p q]
  refine (Cert.Pool.Body.pay_apply (((cfg0.win 0).blk t).view.read (Elt Ideal) A0) (((cfg0.win 1).blk t).view.read (Elt Ideal) A1)
    (((cfg0.win 2).blk t).view.read (Elt Ideal) A2) (((cfg0.win 3).blk t).view.read (Elt Ideal) A3) p q).trans ?_
  rw [read0 A0 t p q, read1 A1 t p q, read2 A2 t p q, read3 A3 t p q, rowSq1 A1 t p, rowSq2 A2 t p, rowSq3 A3 t p]
  rfl

/-- An index of the output array is in point `t`'s block iff each coordinate is in the block's range on its axis. -/
theorem mem_blk (t : Fin cfg0.N) (i : S150000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v40).slice (win0_4.rect t)).set ↔ _
  rw [View.set_slice_whole, Rect.mem_set_unit]
  exact Iff.rfl

/-- Row `r` is in the block of point `r / 5000`: the blocks cover the output array. -/
theorem cover (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have hN : cfg0.N = 30 := N_0
  obtain ⟨t, ht⟩ : ∃ t : Fin cfg0.N, t.val = (i 0).val / 5000 := ⟨⟨(i 0).val / 5000, by omega⟩, rfl⟩
  obtain ⟨-, -, -, -, -, -, -, -, e0, e1⟩ := blockIdx t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0]; omega
  | ⟨1, _⟩ => show win0_4.index t (1 : Fin 2) * 64 ≤ (i 1).val ∧ (i 1).val < win0_4.index t (1 : Fin 2) * 64 + 64; rw [e1]; omega

end Cert.Pool.Blocks

end
-- ==== Proof.KernelRun.lean ====
/-
  The kernel program's run, with its two results named.

  The pooling region leaves the output array at the pool of the four arrays it reads; the two host slices after the
  region then cut that array into the user rows (the first 100000) and the item rows (the last 50000). The arguments
  end unchanged.
-/
import proofs.«135873_j60035052863927_1_alg».proof.Proof.Gen.KernelIdeal.Frame
import proofs.«135873_j60035052863927_1_alg».proof.Proof.Blocks
import Idealize.ShloMosaic.Lib.StableHlo.Run
import Idealize.ShloMosaic.Lib.Pipeline.Value

noncomputable section

namespace Cert.Pool.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The pooled array of the four arrays as the region finds them. -/
abbrev result (c : Dev nD) : S150000x64.Idx → Elt Ideal .f32 :=
  Cert.Pool.pooled (V m c main_v0) (V m c main_v13) (V m c main_v26) (V m c main_v39)

/-- What point `t` writes back is block `t` of the pooled array. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  exact Cert.Pool.Blocks.body_blk (V m c main_v0) (V m c main_v13) (V m c main_v26) (V m c main_v39) t

/-- So the output array ends holding the pooled array. -/
theorem final (c : Dev nD) : (dats m 0 c).arrAt 4 cfg0.N = result m c :=
  (dats m 0 c).arrAt_eq_of_cover 4 (result m c) (fun t _ => flushed_eq m c t) Cert.Pool.Blocks.cover

/-- The first host slice after the region: the user rows of the pooled array. -/
theorem users_eq (c : Dev nD) :
    Pipeline.afterTail₀ cfgs (dats m) 0 (V0 m) [hostOps1] c main_v41
      = extractStridedSlice S100000x64 ![0, 0] (result m c) slices_S150000x64_S100000x64_0_0 := by
  unfold Pipeline.afterTail₀
  show StableHlo.after hostOps1 _ (Proc.devRef .tc main_v41) = _
  after_results
  have e : Pipeline.withArrays (cfgs 0).spec c (V0 m c) (fun w => (dats m 0 c).arrAt w (cfgs 0).N) (Proc.devRef .tc main_v40) = result m c :=
    (Pipeline.withArrays_arr spec0 launch0.win.arr_inj c _ _ 4).trans (final m c)
  rw [e]

/-- The second: the item rows. -/
theorem items_eq (c : Dev nD) :
    Pipeline.afterTail₀ cfgs (dats m) 0 (V0 m) [hostOps1] c main_v42
      = extractStridedSlice S50000x64 ![100000, 0] (result m c) slices_S150000x64_S50000x64_100000_0 := by
  unfold Pipeline.afterTail₀
  show StableHlo.after hostOps1 _ (Proc.devRef .tc main_v42) = _
  after_results
  have e : Pipeline.withArrays (cfgs 0).spec c (V0 m c) (fun w => (dats m 0 c).arrAt w (cfgs 0).N) (Proc.devRef .tc main_v40) = result m c :=
    (Pipeline.withArrays_arr spec0 launch0.win.arr_inj c _ _ 4).trans (final m c)
  rw [e]

/-- The run, read: the two results at the slices of the pooled array, the arguments unchanged. -/
theorem run : θ_run defs (onTc (τ := τ) (main (F := Ideal))) ⟨m, fun _ => 0, ρ⟩ fun r => ∀ c : Dev nD,
      r.2.mem ((c.tc : Thread nD τ).loc main_v41) = extractStridedSlice S100000x64 ![0, 0] (result m c) slices_S150000x64_S100000x64_0_0
      ∧ r.2.mem ((c.tc : Thread nD τ).loc main_v42) = extractStridedSlice S50000x64 ![100000, 0] (result m c) slices_S150000x64_S50000x64_100000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v41 (Pipeline.mem_restRefs_of main_v41 (by decide) (by decide))).trans (users_eq m c),
       ((h c).2 main_v42 (Pipeline.mem_restRefs_of main_v42 (by decide) (by decide))).trans (items_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.Pool.Run

end
-- ==== Proof.RefValue.lean ====
/-
  The reference's pooled array is `Cert.Pool.pooled` of the base embedding and the three propagation layers.

  The reference normalises each layer by a host row-reduction (zero plus the sum of the squares over the 64 features),
  a square root, a clamp from below and a quotient, adds the terms onto the base embedding and divides by 4. Read index
  by index this is the pool's cell: the reduction's zero start is absorbed, and the final quotient by 4 is the product
  with a quarter. The propagation layers themselves (gather, scale, scatter-add) are never opened: they enter only as the
  arrays `val_main_v13`, `val_main_v32`, `val_main_v51`.
-/
import proofs.«135873_j60035052863927_1_alg».proof.Proof.Gen.ReferenceIdeal.Read
import proofs.«135873_j60035052863927_1_alg».proof.Proof.Spec

noncomputable section

namespace Cert.Pool.Ref

open Idealize.ShloMosaic Idealize.ShloMosaic.ValueIdx Cert.ReferenceIdeal Cert.ReferenceIdeal.Gen Cert.ReferenceIdeal.Read

/-- A layer `A` over its rows' clamped lengths, as the reference's host operations spell it. -/
def normTerm (A : FVec Ideal S150000x64 .f32) : FVec Ideal S150000x64 .f32 :=
  Host.divf A (broadcastInDim S150000x64 ![0, 1] bcast_S150000x1_S150000x64_0_1
    (maximumf (Host.sqrt (broadcastInDim S150000x1 ![0] bcast_S150000_S150000x1_0
        (Host.reduceAdd (mulf A A) (constant S_ .f32 0x00000000#32) reducesTo_S150000x64_S150000_d1 h_S_)))
      (broadcastInDim S150000x1 ![] bcast_S_S150000x1 (constant S_ .f32 0x2B8CBCCC#32))))

/-- A host square root at an index is the square root of the entry. -/
theorem hostSqrt_apply {s : Shape} (v : FVec Ideal s .f32) (j : s.Idx) : Host.sqrt v j = Ideal.sqrt (v j) := rfl

/-- A host quotient at an index is the quotient of the entries. -/
theorem hostDivf_apply {s : Shape} (a b : FVec Ideal s .f32) (j : s.Idx) : Host.divf a b j = Ideal.div (a j) (b j) := rfl

/-- The host's row reduction of the squares at row `r`: zero plus the row's sum of squares. -/
theorem rowReduce (A : FVec Ideal S150000x64 .f32) (r : Fin 150000) :
    Host.reduceAdd (mulf A A) (constant (F := Ideal) S_ .f32 0x00000000#32) reducesTo_S150000x64_S150000_d1 h_S_ (ix1 r)
      = Cert.Pool.rowSq A r := by
  simp only [Host.reduceAdd, Ideal.hostReduceAdd_def]
  rw [Ideal.hostReduceAdd_single reducesTo_S150000x64_S150000_d1 (by decide)]
  show Ideal.ofBits .f32 0x00000000#32 + _ = _
  rw [Cert.Pool.zero_eq, zero_add]
  unfold Cert.Pool.rowSq
  refine Finset.sum_congr rfl fun k _ => ?_
  have e : (Shape.Reduces.lift (s := S150000x64) (t := S150000) (a := (1 : Fin 2)) (by decide) (ix1 r) k) = ix2 r k :=
    funext fun a => by match a with | ⟨0, _⟩ => rfl | ⟨1, _⟩ => rfl
  rw [e]
  rfl

/-- The clamped row length, spread over the features, read at row `r` and feature `q`: it depends on `r` only. -/
theorem length_apply (A : FVec Ideal S150000x64 .f32) (r : Fin 150000) (q : Fin 64) :
    broadcastInDim S150000x64 ![0, 1] bcast_S150000x1_S150000x64_0_1
      (maximumf (Host.sqrt (broadcastInDim S150000x1 ![0] bcast_S150000_S150000x1_0
          (Host.reduceAdd (mulf A A) (constant (F := Ideal) S_ .f32 0x00000000#32) reducesTo_S150000x64_S150000_d1 h_S_)))
        (broadcastInDim S150000x1 ![] bcast_S_S150000x1 (constant (F := Ideal) S_ .f32 0x2B8CBCCC#32))) (ix2 r q)
      = max (Ideal.sqrt (Cert.Pool.rowSq A r)) Cert.Pool.clampEps := by
  rw [broadcastInDim_apply _ bcast_S150000x1_S150000x64_0_1 _ (ix2 r q) (ix2 r (0 : Fin 1)) (fun a => by
    match a with
    | ⟨0, _⟩ => show r.val = if (150000 : Nat) = 1 then 0 else r.val; rw [if_neg (by decide)]
    | ⟨1, _⟩ => show 0 = if (1 : Nat) = 1 then 0 else q.val; rw [if_pos rfl])]
  rw [maximumf_apply]
  rw [broadcastInDim_apply _ bcast_S_S150000x1 _ (ix2 r (0 : Fin 1)) ix0 (fun a => a.elim0)]
  rw [hostSqrt_apply]
  rw [broadcastInDim_apply _ bcast_S150000_S150000x1_0 _ (ix2 r (0 : Fin 1)) (ix1 r) (fun a => by
    match a with
    | ⟨0, _⟩ => show r.val = if (150000 : Nat) = 1 then 0 else r.val; rw [if_neg (by decide)])]
  rw [rowReduce]
  rfl

/-- One layer's term at row `r` and feature `q`. -/
theorem normTerm_apply (A : FVec Ideal S150000x64 .f32) (r : Fin 150000) (q : Fin 64) :
    normTerm A (ix2 r q) = Cert.Pool.normed (A (ix2 r q)) (Cert.Pool.rowSq A r) := by
  unfold normTerm
  rw [hostDivf_apply, length_apply]
  rfl

/-- The final quotient by the float 4, at `i`, is the product with the float 0.25. -/
theorem quarter_apply (X : FVec Ideal S150000x64 .f32) (i : S150000x64.Idx) :
    Host.divf X (broadcastInDim S150000x64 ![] bcast_S_S150000x64 (constant (F := Ideal) S_ .f32 0x40800000#32)) i
      = X i * Cert.Pool.quarter := by
  rw [hostDivf_apply, broadcastInDim_apply _ bcast_S_S150000x64 _ i ix0 (fun a => a.elim0)]
  exact Cert.Pool.div_four (X i)

set_option maxRecDepth 65536 in
/-- The reference's pooled array spelt over the base embedding and the three layers, by unfolding the stages above them. -/
theorem stages_eq (x0 : (⟨S100000x64, .f32⟩ : BufTy).Contents (Elt Ideal)) (x1 : (⟨S50000x64, .f32⟩ : BufTy).Contents (Elt Ideal))
    (x2 x3 : (⟨S2000000, .i32⟩ : BufTy).Contents (Elt Ideal)) (x4 : (⟨S2000000, .f32⟩ : BufTy).Contents (Elt Ideal)) :
    val_main_v59 (F := Ideal) x0 x1 x2 x3 x4
      = Host.divf (addf (addf (addf (val_main_v0 (F := Ideal) x0 x1) (normTerm (val_main_v13 (F := Ideal) x0 x1 x2 x3 x4)))
            (normTerm (val_main_v32 (F := Ideal) x0 x1 x2 x3 x4))) (normTerm (val_main_v51 (F := Ideal) x0 x1 x2 x3 x4)))
          (broadcastInDim S150000x64 ![] bcast_S_S150000x64 (constant (F := Ideal) S_ .f32 0x40800000#32)) := by
  unfold val_main_v59 val_main_v58 val_main_cst_10 val_main_v57 val_main_v56 val_main_v55 val_main_v54 val_main_v53 val_main_cst_9
    val_main_v52 val_main_call2_v2 val_main_call2_v1 val_main_call2_cst val_main_call2_v0
    val_main_v38 val_main_v37 val_main_v36 val_main_v35 val_main_v34 val_main_cst_5
    val_main_v33 val_main_call1_v2 val_main_call1_v1 val_main_call1_cst val_main_call1_v0
    val_main_v19 val_main_v18 val_main_v17 val_main_v16 val_main_v15 val_main_cst_1
    val_main_v14 val_main_call0_v2 val_main_call0_v1 val_main_call0_cst val_main_call0_v0 normTerm
  rfl

/-- The array the reference slices its two results from is the pool of the base embedding and the three layers. -/
theorem pooled_eq (x0 : (⟨S100000x64, .f32⟩ : BufTy).Contents (Elt Ideal)) (x1 : (⟨S50000x64, .f32⟩ : BufTy).Contents (Elt Ideal))
    (x2 x3 : (⟨S2000000, .i32⟩ : BufTy).Contents (Elt Ideal)) (x4 : (⟨S2000000, .f32⟩ : BufTy).Contents (Elt Ideal)) :
    val_main_v59 (F := Ideal) x0 x1 x2 x3 x4
      = Cert.Pool.pooled (val_main_v0 (F := Ideal) x0 x1) (val_main_v13 (F := Ideal) x0 x1 x2 x3 x4)
          (val_main_v32 (F := Ideal) x0 x1 x2 x3 x4) (val_main_v51 (F := Ideal) x0 x1 x2 x3 x4) := by
  rw [stages_eq]
  generalize val_main_v0 (F := Ideal) x0 x1 = B
  generalize val_main_v13 (F := Ideal) x0 x1 x2 x3 x4 = A1
  generalize val_main_v32 (F := Ideal) x0 x1 x2 x3 x4 = A2
  generalize val_main_v51 (F := Ideal) x0 x1 x2 x3 x4 = A3
  funext i
  obtain ⟨r, q, rfl⟩ : ∃ (r : Fin 150000) (q : Fin 64), i = ix2 r q := ⟨i 0, i 1, eq_ix2 i⟩
  rw [quarter_apply, addf_apply, addf_apply, addf_apply, normTerm_apply, normTerm_apply, normTerm_apply]
  rfl

end Cert.Pool.Ref

end
-- ==== Proof.HostEntry.lean ====
/-
  The arrays the pooling region reads, as functions of the program's arguments: the first two propagation layers.

  Before the region the kernel program concatenates the two embedding tables and runs three propagation layers, each
  a gather of the previous array's rows at the column indices (negative indices wrapped by the row count), a scaling by
  the edge values and a scatter-add at the row indices into zeros. The reference program runs the same operations on
  the same arguments, so each array the region finds is, literally, the reference's stage of the same name: nothing of
  a gather or a scatter-add is opened.
-/
import proofs.«135873_j60035052863927_1_alg».proof.Proof.Gen.KernelIdeal.Frame
import proofs.«135873_j60035052863927_1_alg».proof.Proof.Gen.ReferenceIdeal.Read
import Idealize.ShloMosaic.Lib.StableHlo.Run

noncomputable section

namespace Cert.Pool.Host

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

set_option maxRecDepth 16384 in
set_option maxHeartbeats 4000000 in
/-- The base embedding: the two tables joined along the node axis. -/
theorem base_eq (c : Dev nD) : (V m c main_v0 : S150000x64.Idx → Elt F .f32) =
    Cert.ReferenceIdeal.Read.val_main_v0 (F := F) (m ((c : Thread nD τ).loc main_arg0)) (m ((c : Thread nD τ).loc main_arg1)) := by
  show StableHlo.after hostOps0 (fun b => m (c, b)) (Proc.devRef .tc main_v0) = _
  after_results
  rfl

set_option maxRecDepth 16384 in
set_option maxHeartbeats 20000000 in
/-- The first propagation layer. -/
theorem layer1_eq (c : Dev nD) : (V m c main_v13 : S150000x64.Idx → Elt F .f32) =
    Cert.ReferenceIdeal.Read.val_main_v13 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v13) = _
  after_results
  rfl

set_option maxRecDepth 16384 in
set_option maxHeartbeats 40000000 in
/-- The second propagation layer. -/
theorem layer2_eq (c : Dev nD) : (V m c main_v26 : S150000x64.Idx → Elt F .f32) =
    Cert.ReferenceIdeal.Read.val_main_v32 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v26) = _
  after_results
  rfl

end Cert.Pool.Host

end
-- ==== Proof.HostEntry3.lean ====
/-
  The arrays the pooling region reads, as functions of the program's arguments: the third propagation layer
  (the same reading as for the first two: the kernel program's host operations before the region are the reference's).
-/
import proofs.«135873_j60035052863927_1_alg».proof.Proof.Gen.KernelIdeal.Frame
import proofs.«135873_j60035052863927_1_alg».proof.Proof.Gen.ReferenceIdeal.Read
import Idealize.ShloMosaic.Lib.StableHlo.Run

noncomputable section

namespace Cert.Pool.Host

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

set_option maxRecDepth 16384 in
set_option maxHeartbeats 80000000 in
/-- The third propagation layer. -/
theorem layer3_eq (c : Dev nD) : (V m c main_v39 : S150000x64.Idx → Elt F .f32) =
    Cert.ReferenceIdeal.Read.val_main_v51 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps0 (fun b => m (c, b)) (Proc.devRef .tc main_v39) = _
  after_results
  rfl

end Cert.Pool.Host

end
-- ==== Proof.Bridge.lean ====
/-
  The kernel program's pooled array is the reference's.

  The four arrays the pooling region finds are the reference's stages of the same arguments (the base embedding and
  the three propagation layers), and the reference's pooled array is the pool of those stages: so the pool of what
  the region finds is the array the reference slices its results from.
-/
import proofs.«135873_j60035052863927_1_alg».proof.Proof.KernelRun
import proofs.«135873_j60035052863927_1_alg».proof.Proof.RefValue
import proofs.«135873_j60035052863927_1_alg».proof.Proof.HostEntry
import proofs.«135873_j60035052863927_1_alg».proof.Proof.HostEntry3

noncomputable section

namespace Cert.Pool.Bridge

open Idealize.ShloMosaic Idealize.ShloMosaic.TcCoe Idealize.SL.Sem Cert.KernelIdeal Cert.KernelIdeal.Gen

variable (m : (ℓ : Loc nD τ sig) → Buf (Elt Ideal) ℓ)

/-- The pool of the arrays the region finds is the reference's pooled array of the kernel program's arguments. -/
theorem result_eq (c : Dev nD) :
    Cert.Pool.Run.result m c
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show Cert.Pool.pooled (V m c main_v0) (V m c main_v13) (V m c main_v26) (V m c main_v39) = _
  rw [Cert.Pool.Host.base_eq m c, Cert.Pool.Host.layer1_eq m c, Cert.Pool.Host.layer2_eq m c, Cert.Pool.Host.layer3_eq m c]
  exact (Cert.Pool.Ref.pooled_eq _ _ _ _ _).symm

end Cert.Pool.Bridge

end
-- ==== Proof.lean ====
/-
  Graph propagation and pooling of node embeddings, kernel against reference, over the extended reals.

  Both programs join the user and item embedding tables into one node array, run three propagation layers on the host
  (gather the neighbours' rows, scale by the edge values, scatter-add into the target rows) and pool: the base array
  plus each layer divided by its rows' Euclidean lengths (clamped below by a small constant), the sum taken a quarter
  of, then cut into user rows and item rows. The kernel program pools in a pipelined region over 30 row blocks of
  5000 nodes and multiplies by the float 0.25; the reference pools with host operations and divides by the float 4.

  The propagation layers are the same host operations of the same arguments in both programs and are never opened.
  The pooled arrays agree index by index: a lane reduction and a host reduction from zero are the same row sum, the
  clamp word is shared, and a quotient by 4 is the product with the exact dyadic 1/4 on every extended real. So the
  precondition (finite inputs) is not used by the value claim.

  The word-level and idealized kernel programs' frames are the generated ones; the reference's frame is its generated
  run with the results dropped; the idealized kernel program is the kernel program's own text read over the extended
  reals, so `preserves` has nothing to state.
-/
import proofs.«135873_j60035052863927_1_alg».proof.Defs
import proofs.«135873_j60035052863927_1_alg».proof.Proof.Gen.Kernel
import proofs.«135873_j60035052863927_1_alg».proof.Proof.Gen.Kernel.Skeleton
import proofs.«135873_j60035052863927_1_alg».proof.Proof.Gen.Kernel.Launch
import proofs.«135873_j60035052863927_1_alg».proof.Proof.Gen.Kernel.Points
import proofs.«135873_j60035052863927_1_alg».proof.Proof.Gen.Kernel.Frame
import proofs.«135873_j60035052863927_1_alg».proof.Proof.Gen.KernelIdeal
import proofs.«135873_j60035052863927_1_alg».proof.Proof.Gen.KernelIdeal.Skeleton
import proofs.«135873_j60035052863927_1_alg».proof.Proof.Gen.KernelIdeal.Launch
import proofs.«135873_j60035052863927_1_alg».proof.Proof.Gen.KernelIdeal.Points
import proofs.«135873_j60035052863927_1_alg».proof.Proof.Gen.KernelIdeal.Frame
import proofs.«135873_j60035052863927_1_alg».proof.Proof.Gen.ReferenceIdeal
import proofs.«135873_j60035052863927_1_alg».proof.Proof.Gen.ReferenceIdeal.Run
import proofs.«135873_j60035052863927_1_alg».proof.Proof.Gen.ReferenceIdeal.Read
import proofs.«135873_j60035052863927_1_alg».proof.Proof.Gen.Pre_finite_inputs
import proofs.«135873_j60035052863927_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the user rows and the item rows of one pooled array: the reference's stages `val_main_v60`
    and `val_main_v61` of the common arguments. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ?_) (Cert.Pool.Run.run m ρ)
    obtain ⟨hu, hi, hargs⟩ := h c
    refine ⟨hu.trans ?_, hi.trans ?_, hargs⟩
    · rw [Cert.Pool.Bridge.result_eq m c]; rfl
    · rw [Cert.Pool.Bridge.result_eq m c]; rfl
  · refine (θ_run Cert.ReferenceIdeal.defs _ _).mono (fun _ h c => ?_) (Cert.ReferenceIdeal.Value.run (F := Ideal) m' ρ')
    obtain ⟨hu, hi, hargs⟩ := h c
    obtain ⟨a0, a1, a2, a3, a4⟩ := hagree c
    refine ⟨hu.trans ?_, hi.trans ?_, hargs⟩
    · rw [Cert.ReferenceIdeal.Read.val_main_v60_eq, a0, a1, a2, a3, a4]
    · rw [Cert.ReferenceIdeal.Read.val_main_v61_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
